-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1 : Shape := ⟨1, ![1]⟩
abbrev S800000 : Shape := ⟨1, ![800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S1 .f32) (main_arg4 : IVec S800000 32) (main_arg5 : IVec S800000 32) (main_arg6 : IVec S800000 32) (main_arg7 : IVec S800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1 : Shape := ⟨1, ![1]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S200000x128 : Shape := ⟨2, ![200000, 128]⟩
abbrev S1x128 : Shape := ⟨2, ![1, 128]⟩
abbrev S1x1 : Shape := ⟨2, ![1, 1]⟩
abbrev S8000x128 : Shape := ⟨2, ![8000, 128]⟩
abbrev S2x100000x128 : Shape := ⟨3, ![2, 100000, 128]⟩

abbrev nBuf : Space → Nat
  | .hbm => 115
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1, .f32⟩
  | .hbm, ⟨4, _⟩ => ⟨S800000, .i32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S100000, .f32⟩
  | .hbm, ⟨12, _⟩ => ⟨S800000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S100000x128, .f32⟩
  | .hbm, ⟨54, _⟩ => ⟨S800000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S100000, .f32⟩
  | .hbm, ⟨63, _⟩ => ⟨S800000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S800000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .i1⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000, .f32⟩
  | .hbm, ⟨76, _⟩ => ⟨S_, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S_, .f32⟩
  | .hbm, ⟨81, _⟩ => ⟨S100000, .f32⟩
  | .hbm, ⟨82, _⟩ => ⟨S100000, .i1⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000, .f32⟩
  | .hbm, ⟨87, _⟩ => ⟨S_, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x128, .f32⟩
  | .hbm, ⟨103, _⟩ => ⟨S_, .f32⟩
  | .hbm, ⟨104, _⟩ => ⟨S100000x128, .f32⟩
  | .hbm, ⟨105, _⟩ => ⟨S800000x1, .i32⟩
  | .hbm, ⟨106, _⟩ => ⟨S100000x128, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S200000x128, .f32⟩
  | .hbm, ⟨111, _⟩ => ⟨S1x128, .f32⟩
  | .hbm, ⟨112, _⟩ => ⟨S1x1, .f32⟩
  | .hbm, ⟨113, _⟩ => ⟨S200000x128, .f32⟩
  | .hbm, ⟨114, _⟩ => ⟨S2x100000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S1x128, .f32⟩
  | .local _ .vmem, ⟨4, _⟩ => ⟨S1x1, .f32⟩
  | .local _ .vmem, ⟨5, _⟩ => ⟨S8000x128, .f32⟩
  | .local _ .vmem, ⟨6, _⟩ => ⟨S8000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_cst_11 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_12 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_13 : Ref sig .tc := ⟨.hbm, 69, rfl⟩
abbrev main_v42 : Ref sig .tc := ⟨.hbm, 70, rfl⟩
abbrev main_v43 : Ref sig .tc := ⟨.hbm, 71, rfl⟩
abbrev main_cst_14 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_15 : Ref sig .tc := ⟨.hbm, 76, rfl⟩
abbrev main_call2_v0 : Ref sig .tc := ⟨.hbm, 77, rfl⟩
abbrev main_call2_v1 : Ref sig .tc := ⟨.hbm, 78, rfl⟩
abbrev main_v47 : Ref sig .tc := ⟨.hbm, 79, rfl⟩
abbrev main_cst_16 : Ref sig .tc := ⟨.hbm, 80, rfl⟩
abbrev main_v48 : Ref sig .tc := ⟨.hbm, 81, rfl⟩
abbrev main_v49 : Ref sig .tc := ⟨.hbm, 82, rfl⟩
abbrev main_cst_17 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_18 : Ref sig .tc := ⟨.hbm, 87, rfl⟩
abbrev main_call3_v0 : Ref sig .tc := ⟨.hbm, 88, rfl⟩
abbrev main_call3_v1 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_19 : Ref sig .tc := ⟨.hbm, 94, rfl⟩
abbrev main_v57 : Ref sig .tc := ⟨.hbm, 95, rfl⟩
abbrev main_v58 : Ref sig .tc := ⟨.hbm, 96, rfl⟩
abbrev main_c_20 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_21 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S200000x128_d0 : Shape.Concatenates [S100000x128, S100000x128] S200000x128 0
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x128 : S1x1.Broadcasts S8000x128
  shapeCasts_S200000x128_S2x100000x128 : S200000x128.ShapeCasts S2x100000x128
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S8000x128_S128x128_S8000x128_1_0_0_1_n_n_wf : DotDims.WF S8000x128 S128x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S200000x128.size a
  hwx0_4 : ∀ i : grid0.Coords, EltTy.bits .f32 = 32 ∨ (Rect.block (s := S200000x128) S8000x128.size (cc0_transform_4 i) (hinb0_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf

abbrev win0_0 : Pipeline.Window sig grid0 :=
  Pipeline.Window.ofSpec (Memref.whole main_v70) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v71) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v72) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v73) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1 : Shape := ⟨1, ![1]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x128 : Shape := ⟨2, ![800000, 128]⟩
abbrev S1x128 : Shape := ⟨2, ![1, 128]⟩
abbrev S1x1 : Shape := ⟨2, ![1, 1]⟩
abbrev S1x100000x128 : Shape := ⟨3, ![1, 100000, 128]⟩
abbrev S2x100000x128 : Shape := ⟨3, ![2, 100000, 128]⟩

abbrev nBuf : Space → Nat
  | .hbm => 135
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S1, .f32⟩
  | 4 => ⟨S800000, .i32⟩
  | 5 => ⟨S800000, .i32⟩
  | 6 => ⟨S800000, .i32⟩
  | 7 => ⟨S800000, .i32⟩
  | 8 => ⟨S_, .f32⟩
  | 9 => ⟨S800000, .f32⟩
  | 10 => ⟨S_, .f32⟩
  | 11 => ⟨S100000, .f32⟩
  | 12 => ⟨S800000x1, .i32⟩
  | 13 => ⟨S100000, .f32⟩
  | 14 => ⟨S_, .f32⟩
  | 15 => ⟨S100000, .f32⟩
  | 16 => ⟨S800000x1, .i32⟩
  | 17 => ⟨S100000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S100000x128, .f32⟩
  | 54 => ⟨S800000x1, .i32⟩
  | 55 => ⟨S100000x128, .f32⟩
  | 56 => ⟨S100000x1, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .i1⟩
  | 66 => ⟨S1x1, .f32⟩
  | 67 => ⟨S100000x128, .f32⟩
  | 68 => ⟨S100000x128, .f32⟩
  | 69 => ⟨S100000x128, .f32⟩
  | 70 => ⟨S_, .f32⟩
  | 71 => ⟨S800000, .f32⟩
  | 72 => ⟨S_, .f32⟩
  | 73 => ⟨S100000, .f32⟩
  | 74 => ⟨S800000x1, .i32⟩
  | 75 => ⟨S100000, .f32⟩
  | 76 => ⟨S_, .f32⟩
  | 77 => ⟨S100000, .f32⟩
  | 78 => ⟨S800000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S_, .f32⟩
  | 95 => ⟨S100000, .f32⟩
  | 96 => ⟨S100000, .f32⟩
  | 97 => ⟨S100000, .f32⟩
  | 98 => ⟨S_, .f32⟩
  | 99 => ⟨S_, .f32⟩
  | 100 => ⟨S100000, .f32⟩
  | 101 => ⟨S100000, .f32⟩
  | 102 => ⟨S100000x1, .f32⟩
  | 103 => ⟨S100000x128, .f32⟩
  | 104 => ⟨S100000x128, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S_, .f32⟩
  | 115 => ⟨S100000x128, .f32⟩
  | 116 => ⟨S800000x1, .i32⟩
  | 117 => ⟨S100000x128, .f32⟩
  | 118 => ⟨S100000x1, .f32⟩
  | 119 => ⟨S100000x128, .f32⟩
  | 120 => ⟨S100000x128, .f32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .i1⟩
  | _ => ⟨S100000x128, .f32⟩

abbrev hbmTy0_1 (i : Nat) : BufTy := match i % 128 with
  | 0 => ⟨S1x1, .f32⟩
  | 1 => ⟨S100000x128, .f32⟩
  | 2 => ⟨S100000x128, .f32⟩
  | 3 => ⟨S100000x128, .f32⟩
  | 4 => ⟨S1x100000x128, .f32⟩
  | 5 => ⟨S1x100000x128, .f32⟩
  | 6 => ⟨S2x100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_cst_6 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_11 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_14 : Ref sig .tc := ⟨.hbm, 80, rfl⟩
abbrev main_v52 : Ref sig .tc := ⟨.hbm, 81, rfl⟩
abbrev main_v53 : Ref sig .tc := ⟨.hbm, 82, rfl⟩
abbrev main_cst_15 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_16 : Ref sig .tc := ⟨.hbm, 87, rfl⟩
abbrev main_call3_v0 : Ref sig .tc := ⟨.hbm, 88, rfl⟩
abbrev main_call3_v1 : Ref sig .tc := ⟨.hbm, 89, rfl⟩
abbrev main_v57 : Ref sig .tc := ⟨.hbm, 90, rfl⟩
abbrev main_cst_17 : Ref sig .tc := ⟨.hbm, 91, rfl⟩
abbrev main_v58 : Ref sig .tc := ⟨.hbm, 92, rfl⟩
abbrev main_v59 : Ref sig .tc := ⟨.hbm, 93, rfl⟩
abbrev main_cst_18 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_19 : Ref sig .tc := ⟨.hbm, 98, rfl⟩
abbrev main_call4_v0 : Ref sig .tc := ⟨.hbm, 99, rfl⟩
abbrev main_call4_v1 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c_20 : Ref sig .tc := ⟨.hbm, 105, rfl⟩
abbrev main_v67 : Ref sig .tc := ⟨.hbm, 106, rfl⟩
abbrev main_v68 : Ref sig .tc := ⟨.hbm, 107, rfl⟩
abbrev main_c_21 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_22 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_23 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  bcast_S100000x128_S1x100000x128_1_2 : S100000x128.BroadcastsInDim S1x100000x128 (![1, 2] : Fin 2 → Fin S1x100000x128.rank)
  concatenates_S1x100000x128_S1x100000x128_S2x100000x128_d0 : Shape.Concatenates [S1x100000x128, S1x100000x128] S2x100000x128 0
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layer.lean ====
/-
  One output layer of the graph convolution, as a function of its arrays, over the extended reals.

  For an aggregated feature array `A` (R rows of 128 features), a weight matrix `W` (128 × 128), a bias row `b`
  and one slope `a`, the entry at row `r` and column `j` is

      ρ_a ( Σ_k A[r, k] · W[k, j]  +  b[j] ),        ρ_a(h) = h  if h > 0,   a · h  otherwise.

  Both programs compute exactly this sum of 128 products, in this order of operands, so nothing here needs the
  entries to be finite: no factor is moved across the sum and nothing is cancelled.  The kernel does it on row blocks
  of a 200000-row array (the two graphs' aggregates stacked); the reference does it once per graph on 100000 rows.
  The statement is therefore generic in the number of rows.
-/
import Idealize.ShloMosaic.PureOps.Ideal
import Idealize.ShloMosaic.PureOps.Ideal.Laws
import Idealize.ShloMosaic.Lib.ValueIdx

noncomputable section

namespace GraphLayer

open Idealize.ShloMosaic Idealize.ShloMosaic.ValueIdx

/-- The leaky rectifier with slope `a`: `h` where `h` is positive, `a · h` elsewhere (the comparison is the
    ordered "greater than" against the zero word, as both programs print it). -/
def rect (a h : EReal) : EReal :=
  Scalar.select (FloatOps.cmpf (F := Ideal) (φ := .f32) .ogt h (Ideal.ofBits .f32 0x00000000#32)) h (a * h)

/-- The affine part at one entry: the row of `A` against the column of `W`, plus the bias of that column. -/
def affine {R : Nat} (A : (⟨2, ![R, 128]⟩ : Shape).Idx → EReal) (W : (⟨2, ![128, 128]⟩ : Shape).Idx → EReal)
    (b : Fin 128 → EReal) (r : Fin R) (j : Fin 128) : EReal :=
  (∑ k : Fin 128, A (ix2 r k) * W (ix2 k j)) + b j

/-- The layer's output array. -/
def out {R : Nat} (A : (⟨2, ![R, 128]⟩ : Shape).Idx → EReal) (W : (⟨2, ![128, 128]⟩ : Shape).Idx → EReal)
    (b : Fin 128 → EReal) (a : EReal) : (⟨2, ![R, 128]⟩ : Shape).Idx → EReal :=
  fun i => rect a (affine A W b (i 0) (i 1))

theorem out_apply {R : Nat} (A : (⟨2, ![R, 128]⟩ : Shape).Idx → EReal) (W : (⟨2, ![128, 128]⟩ : Shape).Idx → EReal)
    (b : Fin 128 → EReal) (a : EReal) (r : Fin R) (j : Fin 128) :
    out A W b a (ix2 r j) = rect a (affine A W b r j) := rfl

/-- The layer's entry at row `r`, column `j` reads row `r` of `A`, the weights, the bias at `j` and the slope, and
    nothing else: two sets of arrays that agree there give the same entry (the rows may sit at different positions of
    arrays of different heights). -/
theorem out_congr {R R' : Nat} (A : (⟨2, ![R, 128]⟩ : Shape).Idx → EReal) (A' : (⟨2, ![R', 128]⟩ : Shape).Idx → EReal)
    (W W' : (⟨2, ![128, 128]⟩ : Shape).Idx → EReal) (b b' : Fin 128 → EReal) (a a' : EReal) (r : Fin R) (r' : Fin R') (j : Fin 128)
    (hA : ∀ k : Fin 128, A (ix2 r k) = A' (ix2 r' k)) (hW : W = W') (hb : b j = b' j) (ha : a = a') :
    out A W b a (ix2 r j) = out A' W' b' a' (ix2 r' j) := by
  subst hW ha
  rw [out_apply, out_apply]
  unfold affine
  rw [hb, Finset.sum_congr rfl fun k _ => by rw [hA k]]

end GraphLayer

end
-- ==== Proof.KernelBlock.lean ====
/-
  The kernel body's stored value at one entry of a row block.

  The body loads a block `x` of 8000 aggregated rows, the whole weight matrix `w`, the bias as a 1 × 128 row `b` and
  the slope as a 1 × 1 array `a`; it multiplies `x` by `w` into a zero accumulator, adds the bias row to every row,
  and selects between that value `h` and `a · h` by the sign of `h`.  The narrowing of `x` and `w` before the product
  is the identity on extended reals, the product into a zero accumulator is the plain sum over the 128 contracted
  positions, and the two broadcasts read the bias at the entry's column and the slope at its one position.  So at row
  `p` and column `q` of the block the stored value is the layer's entry
      ρ_a ( Σ_k x[p, k] · w[k, q] + b[0, q] ).
-/
import proofs.«141110_j31353261260880_1_alg».proof.Proof.Gen.KernelIdeal.Skeleton
import proofs.«141110_j31353261260880_1_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The product's operand positions: rows of the block against columns of the weights -/

theorem lhs_row (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
theorem lhs_contr (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
theorem rhs_contr (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
theorem rhs_col (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The block product into a zero accumulator, at row `p` and column `q`: the sum over the 128 contracted positions
    of the block's row entry times the weights' column entry. -/
theorem product_at {φ₁ φ₂ : FTy} (x : FVec Ideal S8000x128 φ₁) (w : FVec Ideal S128x128 φ₂) (p : Fin 8000) (q : Fin 128) :
    matmul dot_S8000x128_S128x128_S8000x128_1_0_0_1_n_n none x w (constant S8000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhs_row _ _
    | ⟨1, _⟩ => exact (lhs_contr _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhs_contr _ _).trans hk
    | ⟨1, _⟩ => exact rhs_col _ _)
  rw [el, er]

/-- A 1 × 1 array broadcast over a block reads, everywhere, its one entry. -/
theorem splat_at {α : Type} {r c : ℕ} (v : (⟨2, ![1, 1]⟩ : Shape).Idx → α) (h : (⟨2, ![1, 1]⟩ : Shape).Broadcasts ⟨2, ![r, c]⟩)
    (p : Fin r) (q : Fin c) : broadcastTo ⟨2, ![r, c]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- THE STORED VALUE at row `p`, column `q` of the block is the layer's entry over the loaded arrays. -/
theorem stored_at (x : FVec Ideal S8000x128 .f32) (w : FVec Ideal S128x128 .f32) (b : FVec Ideal S1x128 .f32) (a : FVec Ideal S1x1 .f32)
    (p : Fin 8000) (q : Fin 128) :
    k0_pay1 (F := Ideal) x w b a (ix2 p q)
      = GraphLayer.rect (a (ix2 (0 : Fin 1) (0 : Fin 1))) ((∑ k : Fin 128, x (ix2 p k) * w (ix2 k q)) + b (ix2 (0 : Fin 1) q)) := by
  unfold k0_pay1 GraphLayer.rect
  simp only [select_apply, cmpf_apply, mulf_apply, addf_apply, broadcast_apply, shapeCast_self]
  rw [product_at, broadcastTo_1b_ab_apply, splat_at]
  rfl

end Cert.KernelIdeal.Block

end
-- ==== Proof.KernelArray.lean ====
/-
  The kernel's output array, and the program's result.

  The region's first window is the 200000 × 128 array of aggregated features (the two graphs' aggregates stacked),
  cut into 25 blocks of 8000 rows; the weights, the bias row and the slope are whole arrays fetched once; the output
  window has the first one's blocks.  At grid point `t` the body therefore stores, at row `p` of its block, the
  layer's output at row `8000·t + p` of the whole array: every flushed block is a block of ONE whole-array function,
  `layerOut`.  The 25 blocks tile the 200000 rows, so after the run the output array IS `layerOut`; the one host
  operation after the region reshapes it to 2 × 100000 × 128.
-/
import proofs.«141110_j31353261260880_1_alg».proof.Proof.Gen.KernelIdeal.Frame
import proofs.«141110_j31353261260880_1_alg».proof.Proof.KernelBlock
import Idealize.ShloMosaic.Lib.Pipeline.Value
import Idealize.ShloMosaic.Lib.StableHlo.Run

set_option maxRecDepth 16384

noncomputable section

namespace Cert.KernelIdeal.Array

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The arrays the region finds, at their literal shapes -/

/-- The stacked aggregates. -/
abbrev aggs (c : Dev nD) : FVec Ideal S200000x128 .f32 := V m c main_v70
/-- The weights. -/
abbrev wts (c : Dev nD) : FVec Ideal S128x128 .f32 := V m c main_arg1
/-- The bias, as a 1 × 128 row. -/
abbrev biasRow (c : Dev nD) : FVec Ideal S1x128 .f32 := V m c main_v71
/-- The slope, as a 1 × 1 array. -/
abbrev slope (c : Dev nD) : FVec Ideal S1x1 .f32 := V m c main_v72

/-- What the output array ends holding: the layer over the stacked aggregates. -/
def layerOut (c : Dev nD) : S200000x128.Idx → EReal :=
  GraphLayer.out (aggs m c) (wts m c) (fun j => biasRow m c (ix2 (0 : Fin 1) j)) (slope m c (ix2 (0 : Fin 1) (0 : Fin 1)))

/-! ## Blocks -/

theorem hz : (![0, 0] : Fin 2 → Nat) = fun _ => 0 := funext fun a => by fin_cases a <;> rfl

/-- The printed index maps over the grid: the aggregates' block moves with the output's along the rows and both sit at
    column block 0; the weights, the bias and the slope stay at block (0, 0); there are 25 row blocks. -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 24 :=
  (by decide +kernel : ∀ t : Fin grid0.N, _)

/-- Every row block is some grid point's. -/
theorem idx_onto : ∀ q0 : Fin 25, ∃ t : Fin cfg0.N, win0_4.index t = ![q0.val, 0] :=
  (by decide +kernel : ∀ q0 : Fin 25, ∃ t : Fin grid0.N, win0_4.index t = ![q0.val, 0])

/-! ## Each window's block at a point, read off its array -/

/-- The aggregates' block at point `t` is rows `8000·(row block) …` of the stacked array. -/
theorem aggs_block_at (c : Dev nD) (t : Fin cfg0.N) (y : S8000x128.Idx) (k : S200000x128.Idx)
    (hk0 : (k 0).val = win0_4.index t (0 : Fin 2) * 8000 + (y 0).val) (hk1 : (k 1).val = (y 1).val) :
    (iblk m c 0 t : Vec Ideal S8000x128 .f32) y = aggs m c k := by
  obtain ⟨e0, e1, e2, e3, e4, e5, e6, e7, e8, e9⟩ := idx_facts t
  unfold iblk
  rw [View.read_apply]
  show V m c main_v70 _ = V m c main_v70 _
  congr 1
  funext a
  apply Fin.ext
  match a with
  | ⟨0, _⟩ => show win0_0.index t (0 : Fin 2) * 8000 + 1 * (y 0).val = (k 0).val; rw [hk0]; omega
  | ⟨1, _⟩ => show win0_0.index t (1 : Fin 2) * 128 + 1 * (y 1).val = (k 1).val; rw [hk1]; omega

/-- The weights' block is the whole matrix, at every point. -/
theorem wts_block_at (c : Dev nD) (t : Fin cfg0.N) (y : S128x128.Idx) :
    (iblk m c 1 t : Vec Ideal S128x128 .f32) y = wts m c y := by
  obtain ⟨e0, e1, e2, e3, e4, e5, e6, e7, e8, e9⟩ := idx_facts t
  unfold iblk
  rw [View.read_apply]
  show V m c main_arg1 _ = V m c main_arg1 _
  congr 1
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block is the whole row, at every point. -/
theorem bias_block_at (c : Dev nD) (t : Fin cfg0.N) (y : S1x128.Idx) :
    (iblk m c 2 t : Vec Ideal S1x128 .f32) y = biasRow m c y := by
  obtain ⟨e0, e1, e2, e3, e4, e5, e6, e7, e8, e9⟩ := idx_facts t
  unfold iblk
  rw [View.read_apply]
  show V m c main_v71 _ = V m c main_v71 _
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The slope's block is its one entry, at every point. -/
theorem slope_block_at (c : Dev nD) (t : Fin cfg0.N) (y : S1x1.Idx) :
    (iblk m c 3 t : Vec Ideal S1x1 .f32) y = slope m c y := by
  obtain ⟨e0, e1, e2, e3, e4, e5, e6, e7, e8, e9⟩ := idx_facts t
  unfold iblk
  rw [View.read_apply]
  show V m c main_v72 _ = V m c main_v72 _
  congr 1
  funext a
  apply Fin.ext
  match a with
  | ⟨0, _⟩ => show win0_3.index t (0 : Fin 2) * 1 + 1 * (y 0).val = (y 0).val; omega
  | ⟨1, _⟩ => show win0_3.index t (1 : Fin 2) * 1 + 1 * (y 1).val = (y 1).val; omega

/-! ## What a point writes back -/

/-- The stored block is the layer over the block's own arrays, at any entry. -/
theorem stored_is_layer_idx (x : FVec Ideal S8000x128 .f32) (w : FVec Ideal S128x128 .f32) (b : FVec Ideal S1x128 .f32) (a : FVec Ideal S1x1 .f32)
    (y : S8000x128.Idx) :
    k0_pay1 (F := Ideal) x w b a y
      = GraphLayer.out x w (fun q' => b (ix2 (0 : Fin 1) q')) (a (ix2 (0 : Fin 1) (0 : Fin 1))) y := by
  obtain ⟨p, q, rfl⟩ : ∃ (p : Fin 8000) (q : Fin 128), y = ix2 p q := ⟨y 0, y 1, eq_ix2 y⟩
  exact Block.stored_at x w b a p q

/-- WHAT POINT `t` WRITES BACK is block `t` of `layerOut`. -/
theorem flushed_eq (c : Dev nD) (t : Fin cfg0.N) :
    (dats m 0 c).flushed 4 t = ((cfg0.win 4).blk t).view.read (Elt Ideal) (layerOut m c) := by
  show (cfg0.win 4).cut (grid0.coords t) ((dats m 0 c).after 4 t) = _
  rw [after0_4]
  unfold out0_4
  rw [View.canon_unit_zero hz]
  simp only [View.ld_unit_zero (S := S8000x128) hz, View.ld_unit_zero (S := S128x128) hz, View.ld_unit_zero (S := S1x128) hz,
    View.ld_unit_zero (S := S1x1) hz]
  obtain ⟨e0, e1, e2, e3, e4, e5, e6, e7, e8, e9⟩ := idx_facts t
  funext j
  have hj0 : (j 0).val < 8000 := (j 0).isLt
  have hj1 : (j 1).val < 128 := (j 1).isLt
  have hrow : win0_4.index t (0 : Fin 2) * 8000 + (j 0).val < 200000 := by omega
  -- the stored entry is the layer over the point's blocks, at the entry's position inside the block
  refine (stored_is_layer_idx (iblk m c 0 t) (iblk m c 1 t) (iblk m c 2 t) (iblk m c 3 t) ((win0 4).xinj (grid0.coords t) j)).trans ?_
  -- the right side reads the whole-array function at the entry's position in the array
  generalize hG : layerOut m c = G
  rw [View.read_apply]
  show _ = G _
  have hy : (win0 4).xinj (grid0.coords t) j = ix2 (⟨(j 0).val, hj0⟩ : Fin 8000) (⟨(j 1).val, hj1⟩ : Fin 128) :=
    funext fun a => Fin.ext (by
      match a with
      | ⟨0, _⟩ => rfl
      | ⟨1, _⟩ => rfl)
  have he : ((View.whole main_v73).slice ((win0 4).rect t)).emb j
      = ix2 (⟨win0_4.index t (0 : Fin 2) * 8000 + (j 0).val, hrow⟩ : Fin 200000) (⟨(j 1).val, hj1⟩ : Fin 128) :=
    funext fun a => Fin.ext (by
      match a with
      | ⟨0, _⟩ => show win0_4.index t (0 : Fin 2) * 8000 + 1 * (j 0).val = win0_4.index t (0 : Fin 2) * 8000 + (j 0).val; omega
      | ⟨1, _⟩ => show win0_4.index t (1 : Fin 2) * 128 + 1 * (j 1).val = (j 1).val; omega)
  rw [hy, he, ← hG]
  unfold layerOut
  exact GraphLayer.out_congr _ _ _ _ _ _ _ _ _ _ _
    (fun k => aggs_block_at m c t _ _ rfl rfl)
    (funext fun y => wts_block_at m c t y)
    (bias_block_at m c t _)
    (slope_block_at m c t _)

/-- An index of the output array is in point `t`'s block iff each coordinate is in the block's range on its axis. -/
theorem mem_blk (t : Fin cfg0.N) (i : S200000x128.Idx) :
    i ∈ ((cfg0.win 4).blk t).view.set ↔ ∀ a : Fin 2, win0_4.index t a * S8000x128.size a ≤ (i a).val ∧ (i a).val < win0_4.index t a * S8000x128.size a + S8000x128.size a := by
  show i ∈ ((View.whole main_v73).slice (win0_4.rect t)).set ↔ _
  rw [View.set_slice_whole, Rect.mem_set_unit]
  exact Iff.rfl

/-- The blocks tile the array: row `r` lies in the block of point `r / 8000`. -/
theorem covered (i : S200000x128.Idx) :
    ∃ t : Fin cfg0.N, (cfg0.win 4).flush t = true ∧ i ∈ ((cfg0.win 4).blk t).view.set := by
  have hi0 : (i 0).val < 200000 := (i 0).isLt
  have hi1 : (i 1).val < 128 := (i 1).isLt
  obtain ⟨t, ht⟩ := idx_onto ⟨(i 0).val / 8000, by omega⟩
  have q0 : win0_4.index t (0 : Fin 2) = (i 0).val / 8000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 128 ≤ (i 1).val ∧ (i 1).val < win0_4.index t (1 : Fin 2) * 128 + 128; omega

/-- THE OUTPUT ARRAY after the run is the layer over the stacked aggregates. -/
theorem final (c : Dev nD) : (dats m 0 c).arrAt 4 cfg0.N = layerOut m c :=
  (dats m 0 c).arrAt_eq_of_cover 4 (layerOut m c) (fun t _ => flushed_eq m c t) (covered)

/-! ## The host operation after the region, and the run -/

/-- The program's result: the output array reshaped to 2 × 100000 × 128. -/
def result (c : Dev nD) : S2x100000x128.Idx → EReal :=
  shapeCast S2x100000x128 (layerOut m c) shapeCasts_S200000x128_S2x100000x128

theorem tail_eq (c : Dev nD) :
    Pipeline.afterTail₀ cfgs (dats m) 0 (V0 m) [hostOps1] c main_v74 = result m c := by
  unfold Pipeline.afterTail₀
  show StableHlo.after hostOps1 _ (Proc.devRef .tc main_v74) = _
  after_results
  unfold result
  exact congrArg (fun x => shapeCast S2x100000x128 x shapeCasts_S200000x128_S2x100000x128)
    ((Pipeline.withArrays_arr spec0 launch0.win.arr_inj c _ _ 4).trans (final m c))

/-- The frame run re-posted: the result buffer named, the arguments unchanged. -/
theorem run : θ_run defs (onTc (τ := τ) (main (F := Ideal))) ⟨m, fun _ => 0, ρ⟩ fun r => ∀ c : Dev nD,
      r.2.mem ((c.tc : Thread nD τ).loc main_v74) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
      ⟨((h c).2 main_v74 (Pipeline.mem_restRefs_of main_v74 (by decide) (by decide))).trans (tail_eq m c),
        (((h c).2 main_arg0 (Pipeline.mem_restRefs_of main_arg0 (by decide) (by decide))).trans (W_main_arg0 m (dats m) c)),
        ((h c).1 1).trans (((dats m 0 c).arrAt_in 1 rfl _).trans ((A_eq m c 1).trans (V_main_arg1 m c))),
        (((h c).2 main_arg2 (Pipeline.mem_restRefs_of main_arg2 (by decide) (by decide))).trans (W_main_arg2 m (dats m) c)),
        (((h c).2 main_arg3 (Pipeline.mem_restRefs_of main_arg3 (by decide) (by decide))).trans (W_main_arg3 m (dats m) c)),
        (((h c).2 main_arg4 (Pipeline.mem_restRefs_of main_arg4 (by decide) (by decide))).trans (W_main_arg4 m (dats m) c)),
        (((h c).2 main_arg5 (Pipeline.mem_restRefs_of main_arg5 (by decide) (by decide))).trans (W_main_arg5 m (dats m) c)),
        (((h c).2 main_arg6 (Pipeline.mem_restRefs_of main_arg6 (by decide) (by decide))).trans (W_main_arg6 m (dats m) c)),
        (((h c).2 main_arg7 (Pipeline.mem_restRefs_of main_arg7 (by decide) (by decide))).trans (W_main_arg7 m (dats m) c))⟩)
    (run_main m ρ)

end Cert.KernelIdeal.Array

end
-- ==== Proof.RefLayer.lean ====
/-
  The reference, graph by graph.

  For each of the two graphs the reference aggregates the features (a stage this module never opens: `aggPos`,
  `aggNeg` below are its names for the two results), multiplies by the weights, adds the bias, and applies the leaky
  rectifier; it then stacks the two outputs along a new leading axis.  Read at an entry, each graph's output is the
  layer over that graph's aggregate, and the stacked result at (s, n, j) is graph s's output at (n, j).
-/
import proofs.«141110_j31353261260880_1_alg».proof.Proof.RefRead
import proofs.«141110_j31353261260880_1_alg».proof.Proof.Layer
import Idealize.ShloMosaic.Lib.ValueIdx
import Idealize.ShloMosaic.Lib.Pipeline.Value

noncomputable section

namespace Cert.ReferenceIdeal.Graphs

open Cert.ReferenceIdeal Cert.ReferenceIdeal.Gen Cert.ReferenceIdeal.ReadP Idealize.ShloMosaic Idealize.ShloMosaic.ValueIdx

variable (x0 : (⟨S100000x128, .f32⟩ : BufTy).Contents (Elt Ideal)) (x1 : (⟨S128x128, .f32⟩ : BufTy).Contents (Elt Ideal))
  (x2 : (⟨S128, .f32⟩ : BufTy).Contents (Elt Ideal)) (x3 : (⟨S1, .f32⟩ : BufTy).Contents (Elt Ideal))
  (x4 x5 x6 x7 : (⟨S800000, .i32⟩ : BufTy).Contents (Elt Ideal))

/-- The first graph's aggregated features. -/
abbrev aggPos : S100000x128.Idx → EReal := val_main_v34 (F := Ideal) x0 x4 x5
/-- The second graph's aggregated features. -/
abbrev aggNeg : S100000x128.Idx → EReal := val_main_v79 (F := Ideal) x0 x6 x7

/-- The first graph's output is the layer over its aggregate. -/
theorem pos_eq : val_main_v44 (F := Ideal) x0 x1 x2 x3 x4 x5
    = GraphLayer.out (aggPos x0 x4 x5) x1 (fun j => x2 (ix1 j)) (x3 (ix1 (0 : Fin 1))) := by
  funext i
  obtain ⟨r, j, rfl⟩ : ∃ (r : Fin 100000) (j : Fin 128), i = ix2 r j := ⟨i 0, i 1, eq_ix2 i⟩
  have el : ∀ k : Fin 128, lidx_main_v35 (ix2 r j) k = ix2 r k := fun k => funext fun a => Fin.ext (by
    match a with
    | ⟨0, _⟩ => rfl
    | ⟨1, _⟩ => rfl)
  have er : ∀ k : Fin 128, ridx_main_v35 (ix2 r j) k = ix2 k j := fun k => funext fun a => Fin.ext (by
    match a with
    | ⟨0, _⟩ => rfl
    | ⟨1, _⟩ => rfl)
  have eb : idx_main_v36 (idx_main_v37 (ix2 r j)) = ix1 j := funext fun a => Fin.ext (by
    match a with
    | ⟨0, _⟩ => rfl)
  have ea : idx_main_v41 (idx_main_v42 (ix2 r j)) = ix1 (0 : Fin 1) := funext fun a => Fin.ext (by
    match a with
    | ⟨0, _⟩ => rfl)
  rw [val_main_v44_apply, val_main_v40_apply, val_main_v43_apply, val_main_v38_apply, val_main_v35_apply, val_main_v37_apply,
    val_main_v36_apply, val_main_v39_apply, val_main_cst_10_apply, val_main_v42_apply, val_main_v41_apply]
  simp only [el, er, eb, ea]
  rfl

/-- The second graph's output is the layer over its aggregate. -/
theorem neg_eq : val_main_v89 (F := Ideal) x0 x1 x2 x3 x6 x7
    = GraphLayer.out (aggNeg x0 x6 x7) x1 (fun j => x2 (ix1 j)) (x3 (ix1 (0 : Fin 1))) := by
  funext i
  obtain ⟨r, j, rfl⟩ : ∃ (r : Fin 100000) (j : Fin 128), i = ix2 r j := ⟨i 0, i 1, eq_ix2 i⟩
  have el : ∀ k : Fin 128, lidx_main_v80 (ix2 r j) k = ix2 r k := fun k => funext fun a => Fin.ext (by
    match a with
    | ⟨0, _⟩ => rfl
    | ⟨1, _⟩ => rfl)
  have er : ∀ k : Fin 128, ridx_main_v80 (ix2 r j) k = ix2 k j := fun k => funext fun a => Fin.ext (by
    match a with
    | ⟨0, _⟩ => rfl
    | ⟨1, _⟩ => rfl)
  have eb : idx_main_v81 (idx_main_v82 (ix2 r j)) = ix1 j := funext fun a => Fin.ext (by
    match a with
    | ⟨0, _⟩ => rfl)
  have ea : idx_main_v86 (idx_main_v87 (ix2 r j)) = ix1 (0 : Fin 1) := funext fun a => Fin.ext (by
    match a with
    | ⟨0, _⟩ => rfl)
  rw [val_main_v89_apply, val_main_v85_apply, val_main_v88_apply, val_main_v83_apply, val_main_v80_apply, val_main_v82_apply,
    val_main_v81_apply, val_main_v84_apply, val_main_cst_23_apply, val_main_v87_apply, val_main_v86_apply]
  simp only [el, er, eb, ea]
  rfl

/-- THE STACKED RESULT at (s, n, j): the first graph's output for s = 0, the second's for s = 1. -/
theorem stacked_at (s : Fin 2) (n : Fin 100000) (j : Fin 128) :
    val_main_v92 (F := Ideal) x0 x1 x2 x3 x4 x5 x6 x7 (ix3 s n j)
      = if s.val = 0 then val_main_v44 (F := Ideal) x0 x1 x2 x3 x4 x5 (ix2 n j)
        else val_main_v89 (F := Ideal) x0 x1 x2 x3 x6 x7 (ix2 n j) := by
  unfold val_main_v92
  by_cases hs : s.val = 0
  · rw [if_pos hs]
    refine (concatenate_pair_apply_left (t := S2x100000x128) (s₁ := S1x100000x128) (s₂ := S1x100000x128) (0 : Fin 3) _ _ _ (ix3 s n j) rfl (ix3 (0 : Fin 1) n j) (fun b => ?_)).trans ?_
    · match b with
      | ⟨0, _⟩ => show 0 = s.val; omega
      | ⟨1, _⟩ => rfl
      | ⟨2, _⟩ => rfl
    · rw [val_main_v90_apply]
      exact congrArg _ (funext fun a => Fin.ext (by
        match a with
        | ⟨0, _⟩ => rfl
        | ⟨1, _⟩ => rfl))
  · rw [if_neg hs]
    have hs1 : s.val = 1 := by have := s.isLt; omega
    refine (concatenate_pair_apply_right (t := S2x100000x128) (s₁ := S1x100000x128) (s₂ := S1x100000x128) (0 : Fin 3) _ _ _ (ix3 s n j) rfl rfl (ix3 (0 : Fin 1) n j) (fun b hb => ?_) ?_).trans ?_
    · match b with
      | ⟨0, _⟩ => exact absurd rfl hb
      | ⟨1, _⟩ => rfl
      | ⟨2, _⟩ => rfl
    · show 0 + 1 = s.val; omega
    · rw [val_main_v91_apply]
      exact congrArg _ (funext fun a => Fin.ext (by
        match a with
        | ⟨0, _⟩ => rfl
        | ⟨1, _⟩ => rfl))

end Cert.ReferenceIdeal.Graphs

end
-- ==== Proof.Bridge.lean ====
/-
  The two programs compute one function.

  Before its region the kernel program aggregates the features once per graph, by the very operations the reference
  uses, stacks the two aggregates along the rows, and reshapes the bias to a row and the slope to a 1 × 1 array.  So:
  * the array the region's first window reads is the two aggregates stacked (rows 0 … 99999 the first graph's, rows
    100000 … 199999 the second's), and each aggregate is, operation for operation, the reference's;
  * row `100000·s + n` of the kernel's output is the layer over graph `s`'s aggregate at row `n`, because the layer's
    entry reads one row of the aggregate only;
  * the reshape to 2 × 100000 × 128 sends that row to position (s, n), where the reference's stacked result has graph
    `s`'s output at row `n`.
  The aggregation itself (degree counts, the gather along the edges, the scatter-add) is never opened: it is the same
  term on both sides.
-/
import proofs.«141110_j31353261260880_1_alg».proof.Proof.KernelArray
import proofs.«141110_j31353261260880_1_alg».proof.Proof.RefLayer
import Idealize.ShloMosaic.Lib.ValueLayout
import Idealize.ShloMosaic.Lib.StableHlo.Run

set_option maxRecDepth 16384

noncomputable section

namespace Cert.Bridge

open Idealize.ShloMosaic Idealize.ShloMosaic.TcCoe Idealize.ShloMosaic.ValueIdx Idealize.ShloMosaic.StableHlo
open Idealize.SL.Sem

/-! ## The kernel program's host operations before the region, read back -/

section Prefix

open Cert.KernelIdeal Cert.KernelIdeal.Gen

variable {F : FTy → Type} [FloatOps F]
variable (m : (ℓ : Loc nD τ sig) → Buf (Elt F) ℓ)

/-- The region's first array is the two aggregates stacked along the rows. -/
theorem stack_eq (c : Dev nD) :
    V m c main_v70 = concatenate S200000x128 0 [⟨S100000x128, V m c main_v34⟩, ⟨S100000x128, V m c main_v69⟩]
      concatenates_S100000x128_S100000x128_S200000x128_d0 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The bias as the region finds it: the argument, as one row. -/
theorem biasRow_eq (c : Dev nD) :
    V m c main_v71 = shapeCast S1x128 (m ((c : Thread nD τ).loc main_arg2)) shapeCasts_S128_S1x128 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The slope as the region finds it: the argument, as a 1 × 1 array. -/
theorem slope_eq (c : Dev nD) :
    V m c main_v72 = shapeCast S1x1 (m ((c : Thread nD τ).loc main_arg3)) shapeCasts_S1_S1x1 := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

/-- The first graph's aggregate is the reference's, operation for operation. -/
theorem aggPos_eq (c : Dev nD) :
    V m c main_v34 = Cert.ReferenceIdeal.ReadP.val_main_v34 (F := F) (m ((c : Thread nD τ).loc main_arg0))
      (m ((c : Thread nD τ).loc main_arg4)) (m ((c : Thread nD τ).loc main_arg5)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

set_option maxHeartbeats 2000000 in
/-- The second graph's aggregate is the reference's, operation for operation. -/
theorem aggNeg_eq (c : Dev nD) :
    V m c main_v69 = Cert.ReferenceIdeal.ReadP.val_main_v79 (F := F) (m ((c : Thread nD τ).loc main_arg0))
      (m ((c : Thread nD τ).loc main_arg6)) (m ((c : Thread nD τ).loc main_arg7)) := by
  dsimp only [V, V0]
  simp only [hostOps0, hostOps0_1, hostOps0_2, hostOps0_3, hostOps0_4, hostOps0_5, hostOps0_6, hostOps0_7, hostOps0_8, List.flatten_cons, List.flatten_nil, List.append_nil, List.cons_append, List.nil_append]
  after_results_simp <;> rfl

end Prefix

/-! ## The results, entry by entry -/

section Results

open Cert.KernelIdeal Cert.KernelIdeal.Gen

variable (m : (ℓ : Loc nD τ sig) → Buf (Elt Ideal) ℓ)

/-- The kernel program's result at (s, n, j) is the layer's output at row `100000·s + n` of the stacked array. -/
theorem result_at (c : Dev nD) (s : Fin 2) (n : Fin 100000) (j : Fin 128)
    (hrow : s.val * 100000 + n.val < 200000) :
    Array.result m c (ix3 s n j) = Array.layerOut m c (ix2 (⟨s.val * 100000 + n.val, hrow⟩ : Fin 200000) j) := by
  unfold Array.result
  exact shapeCast_apply _ _ _ _ (by
    rw [Shape.rowMajor_val_two, Shape.rowMajor_val_three]
    rfl)

/-- A row of the stacked array is a row of one graph's aggregate. -/
theorem stacked_row (c : Dev nD) (s : Fin 2) (n : Fin 100000) (k : Fin 128) (hrow : s.val * 100000 + n.val < 200000) :
    Array.aggs m c (ix2 (⟨s.val * 100000 + n.val, hrow⟩ : Fin 200000) k)
      = if s.val = 0 then V m c main_v34 (ix2 n k) else V m c main_v69 (ix2 n k) := by
  show V m c main_v70 _ = _
  rw [stack_eq m c]
  by_cases hs : s.val = 0
  · rw [if_pos hs]
    refine concatenate_pair_apply_left (t := S200000x128) (s₁ := S100000x128) (s₂ := S100000x128) (0 : Fin 2) _ _ _ _ rfl (ix2 n k) (fun b => ?_)
    match b with
    | ⟨0, _⟩ => show n.val = s.val * 100000 + n.val; omega
    | ⟨1, _⟩ => rfl
  · rw [if_neg hs]
    have hs1 : s.val = 1 := by have := s.isLt; omega
    refine concatenate_pair_apply_right (t := S200000x128) (s₁ := S100000x128) (s₂ := S100000x128) (0 : Fin 2) _ _ _ _ rfl rfl (ix2 n k) (fun b hb => ?_) ?_
    · match b with
      | ⟨0, _⟩ => exact absurd rfl hb
      | ⟨1, _⟩ => rfl
    · show n.val + 100000 = s.val * 100000 + n.val; omega

/-- The bias row and the slope as the region finds them, read at an entry: the arguments' entries. -/
theorem biasRow_at (c : Dev nD) (j : Fin 128) :
    Array.biasRow m c (ix2 (0 : Fin 1) j) = m ((c : Thread nD τ).loc main_arg2) (ix1 j) := by
  show V m c main_v71 _ = _
  rw [biasRow_eq m c]
  exact shapeCast_a_1a_apply _ _ (0 : Fin 1) j

theorem slope_at (c : Dev nD) :
    Array.slope m c (ix2 (0 : Fin 1) (0 : Fin 1)) = m ((c : Thread nD τ).loc main_arg3) (ix1 (0 : Fin 1)) := by
  show V m c main_v72 _ = _
  rw [slope_eq m c]
  exact shapeCast_a_1a_apply _ _ (0 : Fin 1) (0 : Fin 1)

/-- Row `n` of the first half of the kernel's output array is the layer over the first graph's aggregate. -/
theorem entry_pos (c : Dev nD) (s : Fin 2) (n : Fin 100000) (j : Fin 128) (hrow : s.val * 100000 + n.val < 200000) (hs : s.val = 0) :
    Array.layerOut m c (ix2 (⟨s.val * 100000 + n.val, hrow⟩ : Fin 200000) j)
      = GraphLayer.out (R := 100000) (V m c main_v34) (m ((c : Thread nD τ).loc main_arg1))
          (fun j' => m ((c : Thread nD τ).loc main_arg2) (ix1 j')) (m ((c : Thread nD τ).loc main_arg3) (ix1 (0 : Fin 1))) (ix2 n j) := by
  unfold Array.layerOut
  refine GraphLayer.out_congr (Array.aggs m c) (V m c main_v34) (Array.wts m c) (m ((c : Thread nD τ).loc main_arg1)) _ _ _ _
    (⟨s.val * 100000 + n.val, hrow⟩ : Fin 200000) n j (fun k => ?_) (V_main_arg1 m c) (biasRow_at m c j) (slope_at m c)
  rw [stacked_row m c s n k hrow, if_pos hs]

/-- Row `n` of the second half is the layer over the second graph's aggregate. -/
theorem entry_neg (c : Dev nD) (s : Fin 2) (n : Fin 100000) (j : Fin 128) (hrow : s.val * 100000 + n.val < 200000) (hs : ¬ s.val = 0) :
    Array.layerOut m c (ix2 (⟨s.val * 100000 + n.val, hrow⟩ : Fin 200000) j)
      = GraphLayer.out (R := 100000) (V m c main_v69) (m ((c : Thread nD τ).loc main_arg1))
          (fun j' => m ((c : Thread nD τ).loc main_arg2) (ix1 j')) (m ((c : Thread nD τ).loc main_arg3) (ix1 (0 : Fin 1))) (ix2 n j) := by
  unfold Array.layerOut
  refine GraphLayer.out_congr (Array.aggs m c) (V m c main_v69) (Array.wts m c) (m ((c : Thread nD τ).loc main_arg1)) _ _ _ _
    (⟨s.val * 100000 + n.val, hrow⟩ : Fin 200000) n j (fun k => ?_) (V_main_arg1 m c) (biasRow_at m c j) (slope_at m c)
  rw [stacked_row m c s n k hrow, if_neg hs]

end Results

/-- THE TWO RESULTS AGREE, from memories that agree on the arguments. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.ReadP.val_main_v92 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
      = Cert.KernelIdeal.Array.result m c := by
  rw [h0, h1, h2, h3, h4, h5, h6, h7]
  funext i
  obtain ⟨s, n, j, rfl⟩ : ∃ (s : Fin 2) (n : Fin 100000) (j : Fin 128), i = ix3 s n j := ⟨i 0, i 1, i 2, eq_ix3 i⟩
  have hrow : s.val * 100000 + n.val < 200000 := by have := s.isLt; have := n.isLt; omega
  rw [Cert.ReferenceIdeal.Graphs.stacked_at, result_at m c s n j hrow]
  by_cases hs : s.val = 0
  · rw [if_pos hs, Cert.ReferenceIdeal.Graphs.pos_eq, entry_pos m c s n j hrow hs, aggPos_eq m c]
  · rw [if_neg hs, Cert.ReferenceIdeal.Graphs.neg_eq, entry_neg m c s n j hrow hs, aggNeg_eq m c]

end Cert.Bridge

end
-- ==== Proof.lean ====
/-
  The certificate of a two-graph convolution layer: for each of two edge lists over 100000 nodes, aggregate the node
  features along the edges with the symmetric degree normalisation, then apply one dense layer — multiply by a
  128 × 128 weight matrix, add a bias, apply the leaky rectifier with one shared slope — and stack the two outputs.

  The kernel program aggregates on the host exactly as the reference does, stacks the two aggregates to 200000 rows,
  runs the dense layer as one region over 25 row blocks of 8000, and reshapes the result to 2 × 100000 × 128; the
  reference applies the dense layer per graph on the host and stacks.  Over the extended reals the narrowing of the
  region's matrix operands is the identity and its block product is the plain sum of 128 products, so both programs
  give, at (s, n, j),
      ρ_a ( Σ_k agg_s[n, k] · W[k, j] + b[j] ),        ρ_a(h) = h if h > 0, a · h otherwise,
  with the same aggregate `agg_s`.  No law that would need finite entries is used, so the precondition is never opened.

  The parts: Proof/Layer.lean states the layer; Proof/KernelBlock.lean reads the region body's stored value at an
  entry; Proof/KernelArray.lean assembles the region's output array from its blocks and follows it through the final
  reshape; Proof/RefLayer.lean reads the reference's two outputs and their stacking; Proof/Bridge.lean identifies the
  aggregates and the entries.  The idealization rewrote nothing, so the kernel's idealized text is its own text read
  over the extended reals.
-/
import proofs.«141110_j31353261260880_1_alg».proof.Defs
import proofs.«141110_j31353261260880_1_alg».proof.Proof.Gen.Kernel
import proofs.«141110_j31353261260880_1_alg».proof.Proof.Gen.Kernel.Skeleton
import proofs.«141110_j31353261260880_1_alg».proof.Proof.Gen.Kernel.Launch
import proofs.«141110_j31353261260880_1_alg».proof.Proof.Gen.Kernel.Points
import proofs.«141110_j31353261260880_1_alg».proof.Proof.Gen.Kernel.Frame
import proofs.«141110_j31353261260880_1_alg».proof.Proof.Gen.KernelIdeal
import proofs.«141110_j31353261260880_1_alg».proof.Proof.Gen.KernelIdeal.Skeleton
import proofs.«141110_j31353261260880_1_alg».proof.Proof.Gen.KernelIdeal.Launch
import proofs.«141110_j31353261260880_1_alg».proof.Proof.Gen.KernelIdeal.Points
import proofs.«141110_j31353261260880_1_alg».proof.Proof.Gen.KernelIdeal.Frame
import proofs.«141110_j31353261260880_1_alg».proof.Proof.Gen.ReferenceIdeal
import proofs.«141110_j31353261260880_1_alg».proof.Proof.Gen.Pre_finite_inputs
import proofs.«141110_j31353261260880_1_alg».proof.Proof.RefRun
import proofs.«141110_j31353261260880_1_alg».proof.Proof.RefRead
import proofs.«141110_j31353261260880_1_alg».proof.Proof.KernelArray
import proofs.«141110_j31353261260880_1_alg».proof.Proof.RefLayer
import proofs.«141110_j31353261260880_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end, with the layer's outputs for the two graphs stacked, entry for entry equal. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v92_eq]
  exact Cert.Bridge.result_eq m m' c (hagree c).1 (hagree c).2.1 (hagree c).2.2.1 (hagree c).2.2.2.1 (hagree c).2.2.2.2.1
    (hagree c).2.2.2.2.2.1 (hagree c).2.2.2.2.2.2.1 (hagree c).2.2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
